-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16384x2048 .f32) (main_arg1 : FVec F S2048x2048 .f32) (main_arg2 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩
abbrev S1x1 : Shape := ⟨2, ![1, 1]⟩
abbrev S1024x2048 : Shape := ⟨2, ![1024, 2048]⟩
abbrev S512x2048 : Shape := ⟨2, ![512, 2048]⟩
abbrev S1x512 : Shape := ⟨2, ![1, 512]⟩
abbrev S1024x512 : Shape := ⟨2, ![1024, 512]⟩

abbrev nBuf : Space → Nat
  | .hbm => 9
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S_, .f32⟩
  | .hbm, ⟨7, _⟩ => ⟨S1x1, .f32⟩
  | .hbm, ⟨8, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S1x1, .f32⟩
  | .local _ .vmem, ⟨7, _⟩ => ⟨S1024x512, .f32⟩
  | .local _ .vmem, ⟨8, _⟩ => ⟨S1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2048_S1x2048 : S2048.ShapeCasts S1x2048
  reducesTo_S2048x2048_S_d0_1 : S2048x2048.ReducesTo [0, 1] S_
  h_S_ : 0 < S_.numel
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x2048_S512x2048_0_0 : ∀ a, (![0, 0] : Fin 2 → Nat) a + S512x2048.size a ≤ S512x2048.size a
  h_S512x2048 : 0 < S512x2048.numel
  broadcasts_S1x1_S512x2048 : S1x1.Broadcasts S512x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x2048_S512x2048_S1024x512_1_1_0_0_n_n_wf : DotDims.WF S1024x2048 S512x2048 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S16384x2048.size a
  hwx0_4 : ∀ i : grid0.Coords, EltTy.bits .f32 = 32 ∨ (Rect.block (s := S16384x2048) S1024x512.size (cc0_transform_4 i) (hinb0_4 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S16384x2048, .f32⟩
  | .hbm, ⟨23, _⟩ => ⟨S1x2048, .f32⟩
  | .hbm, ⟨24, _⟩ => ⟨S16384x2048, .f32⟩
  | .hbm, ⟨25, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  transposes_S2048x2048_S2048x2048_1_0 : S2048x2048.Transposes [1, 0] S2048x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  dot_S16384x2048_S2048x2048_S16384x2048_1_0_0_1_n_n_wf : DotDims.WF S16384x2048 S2048x2048 S16384x2048 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.Spec.lean ====
/-
  The layer both programs compute, as one function of the argument arrays read at an index.

  With `s` the largest absolute value of a weight, a weight `w` is snapped to the three-point grid
  `{-s, 0, s}`: `w / (s + ε)` is rounded to the nearest integer (ties to even), clipped to `[-1, 1]`,
  and scaled back by `s`. Entry `(r, c)` of the result is the inner product of row `r` of the
  activations with row `c` of the snapped weights, plus entry `c` of the bias:

    out[r, c] = (∑ k, X[r, k] · snap_s(W[c, k])) + b[c].

  All arithmetic is that of the extended reals; a change of float format is the identity there, so the
  narrowing of both matmul operands does not appear.
-/
import Idealize.ShloMosaic.PureOps.Ideal
import Idealize.ShloMosaic.Lib.ValueIdx

noncomputable section

open scoped BigOperators

namespace Cert.TernaryLinear

open Idealize.ShloMosaic Idealize.ShloMosaic.ValueIdx

/-- One weight snapped to `{-s, 0, s}`: `clip(roundHalfEven(w / (s + ε)), -1, 1) · s`, with `ε`, `-1` and `1`
    the f32 words the programs carry (the same words on both sides, never evaluated). -/
def snap (s w : EReal) : EReal :=
  min (Ideal.ofBits .f32 0x3F800000#32)
    (max (Ideal.ofBits .f32 0xBF800000#32)
      (Ideal.liftRound Ideal.roundHalfEven (Ideal.div w (s + Ideal.ofBits .f32 0x322BCC77#32)))) * s

/-- The layer at scale `s`: activations `X : [16384, 2048]`, weights `W : [2048, 2048]` (one row per output
    column), bias `b : [2048]`. -/
def layer (s : EReal) (X : (⟨2, ![16384, 2048]⟩ : Shape).Idx → EReal) (W : (⟨2, ![2048, 2048]⟩ : Shape).Idx → EReal)
    (b : (⟨1, ![2048]⟩ : Shape).Idx → EReal) : (⟨2, ![16384, 2048]⟩ : Shape).Idx → EReal :=
  fun i => (∑ k : Fin 2048, X (ix2 (n0 := 16384) (n1 := 2048) (i 0) k) * snap s (W (ix2 (n0 := 2048) (n1 := 2048) (i 1) k)))
    + b (ix1 (n := 2048) (i 1))

/-- The layer at coordinates. -/
theorem layer_apply (s : EReal) (X : (⟨2, ![16384, 2048]⟩ : Shape).Idx → EReal) (W : (⟨2, ![2048, 2048]⟩ : Shape).Idx → EReal)
    (b : (⟨1, ![2048]⟩ : Shape).Idx → EReal) (r : Fin 16384) (c : Fin 2048) :
    layer s X W b (ix2 r c) = (∑ k : Fin 2048, X (ix2 r k) * snap s (W (ix2 c k))) + b (ix1 c) := rfl

end Cert.TernaryLinear

end
-- ==== Proof.KernelPayload.lean ====
/-
  What the kernel body stores, read at one entry of its output block.

  At a grid point the body holds a block of 1024 activation rows `x`, a block of 512 weight rows `w`, the
  matching 512 bias entries `b` (as one row) and the scale `s` (a 1×1 array). It snaps the weight block
  entry by entry, contracts the activations' columns with the snapped weights' columns into a zero
  accumulator, and adds the bias row to every row. So entry `(p, q)` of what it stores is

    (∑ k, x[p, k] · snap_s(w[q, k])) + b[0, q],

  the layer of `Spec.lean` on the blocks. The two narrowings in front of the matmul are the identity on
  extended reals.
-/
import proofs.«167801_j28939489640538_1_alg».proof.Proof.Gen.KernelIdeal.Skeleton
import proofs.«167801_j28939489640538_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.TernaryLinear.Body

open Idealize.ShloMosaic Idealize.ShloMosaic.ValueIdx
open Cert.KernelIdeal Cert.KernelIdeal.Gen
open Cert.TernaryLinear

/-! ## The contraction's operand indices: both operands are contracted along their columns -/

theorem lhs_axis0 (i : S1024x512.Idx) (q : dot_S1024x2048_S512x2048_S1024x512_1_1_0_0_n_n.contr.Idx) :
    (dot_S1024x2048_S512x2048_S1024x512_1_1_0_0_n_n.lhsIdx i q 0).val = (i 0).val := by
  unfold DotDims.lhsIdx
  rw [dif_neg (show ¬(0 : Fin S1024x2048.rank) ∈ dot_S1024x2048_S512x2048_S1024x512_1_1_0_0_n_n.lhsBatch by decide), dif_pos (show (0 : Fin S1024x2048.rank) ∈ dot_S1024x2048_S512x2048_S1024x512_1_1_0_0_n_n.lhsNonContracting by decide)]
  rfl
theorem lhs_axis1 (i : S1024x512.Idx) (q : dot_S1024x2048_S512x2048_S1024x512_1_1_0_0_n_n.contr.Idx) :
    (dot_S1024x2048_S512x2048_S1024x512_1_1_0_0_n_n.lhsIdx i q 1).val = (q ⟨0, by decide⟩).val :=
  dot_S1024x2048_S512x2048_S1024x512_1_1_0_0_n_n.lhsIdx_val_of_single rfl i q
theorem rhs_axis0 (i : S1024x512.Idx) (q : dot_S1024x2048_S512x2048_S1024x512_1_1_0_0_n_n.contr.Idx) :
    (dot_S1024x2048_S512x2048_S1024x512_1_1_0_0_n_n.rhsIdx i q 0).val = (i 1).val := by
  unfold DotDims.rhsIdx
  rw [dif_neg (show ¬(0 : Fin S512x2048.rank) ∈ dot_S1024x2048_S512x2048_S1024x512_1_1_0_0_n_n.rhsBatch by decide), dif_pos (show (0 : Fin S512x2048.rank) ∈ dot_S1024x2048_S512x2048_S1024x512_1_1_0_0_n_n.rhsNonContracting by decide)]
  rfl
theorem rhs_axis1 (i : S1024x512.Idx) (q : dot_S1024x2048_S512x2048_S1024x512_1_1_0_0_n_n.contr.Idx) :
    (dot_S1024x2048_S512x2048_S1024x512_1_1_0_0_n_n.rhsIdx i q 1).val = (q ⟨0, by decide⟩).val :=
  dot_S1024x2048_S512x2048_S1024x512_1_1_0_0_n_n.rhsIdx_val_of_single rfl i q

/-- The matrix product into a zero accumulator, at `(p, q)`: row `p` of the left operand against row `q` of the
    right one. -/
theorem matmul_at (a : FVec Ideal S1024x2048 .bf16) (w : FVec Ideal S512x2048 .bf16) (p : Fin 1024) (q : Fin 512) :
    matmul dot_S1024x2048_S512x2048_S1024x512_1_1_0_0_n_n none a w (constant S1024x512 .f32 0x00000000#32) (ix2 p q)
      = ∑ k : Fin 2048, a (ix2 p k) * w (ix2 q k) := by
  simp only [matmul]
  rw [Ideal.matmul_constant_zero_apply, ← Equiv.sum_comp (contrEquiv1 dot_S1024x2048_S512x2048_S1024x512_1_1_0_0_n_n 2048 rfl rfl).symm]
  refine Finset.sum_congr rfl fun k _ => ?_
  have hk := contrEquiv1_symm_val dot_S1024x2048_S512x2048_S1024x512_1_1_0_0_n_n 2048 rfl rfl k
  have el : dot_S1024x2048_S512x2048_S1024x512_1_1_0_0_n_n.lhsIdx (ix2 p q) ((contrEquiv1 dot_S1024x2048_S512x2048_S1024x512_1_1_0_0_n_n 2048 rfl rfl).symm k) = ix2 p k := funext fun ax => Fin.ext (by
    match ax with
    | ⟨0, _⟩ => exact lhs_axis0 _ _
    | ⟨1, _⟩ => exact (lhs_axis1 _ _).trans hk)
  have er : dot_S1024x2048_S512x2048_S1024x512_1_1_0_0_n_n.rhsIdx (ix2 p q) ((contrEquiv1 dot_S1024x2048_S512x2048_S1024x512_1_1_0_0_n_n 2048 rfl rfl).symm k) = ix2 q k := funext fun ax => Fin.ext (by
    match ax with
    | ⟨0, _⟩ => exact rhs_axis0 _ _
    | ⟨1, _⟩ => exact (rhs_axis1 _ _).trans hk)
  rw [el, er]

/-- A 1×1 array broadcast over the weight block reads its one entry everywhere. -/
theorem bcast_scalar_at (v : FVec Ideal S1x1 .f32) (h : S1x1.Broadcasts S512x2048) (j : S512x2048.Idx) :
    broadcastTo S512x2048 v h j = v (ix2 (0 : Fin 1) (0 : Fin 1)) :=
  broadcastTo_apply v h j (ix2 (0 : Fin 1) (0 : Fin 1)) fun ax => by
    match ax with
    | ⟨0, _⟩ => rfl
    | ⟨1, _⟩ => rfl

/-- THE PAYLOAD AT AN ENTRY: the layer on the blocks. -/
theorem pay_apply (s : Vec Ideal S1x1 .f32) (w : Vec Ideal S512x2048 .f32) (x : Vec Ideal S1024x2048 .f32) (b : Vec Ideal S1x512 .f32)
    (p : Fin 1024) (q : Fin 512) :
    k0_pay1 (F := Ideal) s w x b (ix2 p q)
      = (∑ k : Fin 2048, x (ix2 p k) * snap (s (ix2 (0 : Fin 1) (0 : Fin 1))) (w (ix2 q k))) + b (ix2 (0 : Fin 1) q) := by
  unfold k0_pay1
  show (matmul dot_S1024x2048_S512x2048_S1024x512_1_1_0_0_n_n none _ _ _ (ix2 p q)) + (broadcastTo S1024x512 _ _ (ix2 p q)) = _ + _
  congr 1
  · refine (matmul_at _ _ p q).trans (Finset.sum_congr rfl fun k _ => ?_)
    show x (ix2 p k) * (min _ (max _ (Ideal.liftRound Ideal.roundHalfEven (Ideal.div (w (ix2 q k)) (broadcastTo S512x2048 _ _ (ix2 q k))))) * (broadcastTo S512x2048 _ _ (ix2 q k))) = _
    rw [bcast_scalar_at, bcast_scalar_at, shapeCast_self]
    rfl
  · refine (broadcastTo_1b_ab_apply _ _ p q).trans ?_
    rw [shapeCast_self]

/-- THE PAYLOAD IS THE LAYER ON THE ARRAYS, once each block is known to be the right rows of its array: the activation
    block's row `p` is the activations' row `r`, the weight block's row `q` the weights' row `c`, the bias block's
    entry `q` the bias's entry `c`, and the 1×1 block holds the scale. -/
theorem block_eq (s : Vec Ideal S1x1 .f32) (w : Vec Ideal S512x2048 .f32) (x : Vec Ideal S1024x2048 .f32) (b : Vec Ideal S1x512 .f32)
    (sc : EReal) (X : S16384x2048.Idx → EReal) (W : S2048x2048.Idx → EReal) (B : S2048.Idx → EReal)
    (p : Fin 1024) (q : Fin 512) (r : Fin 16384) (c : Fin 2048)
    (hs : s (ix2 (0 : Fin 1) (0 : Fin 1)) = sc) (hx : ∀ k : Fin 2048, x (ix2 p k) = X (ix2 r k))
    (hw : ∀ k : Fin 2048, w (ix2 q k) = W (ix2 c k)) (hb : b (ix2 (0 : Fin 1) q) = B (ix1 c)) :
    k0_pay1 (F := Ideal) s w x b (ix2 p q) = layer sc X W B (ix2 r c) := by
  rw [pay_apply, layer_apply, hs, hb]
  congr 1
  exact Finset.sum_congr rfl fun k _ => by rw [hx k, hw k]

end Cert.TernaryLinear.Body

end
-- ==== Proof.KernelValue.lean ====
/-
  From the kernel's blocks to its whole result array.

  The grid is 16 × 4: point `(i, j)` reads activation rows `1024·i …`, weight rows `512·j …`, bias entries
  `512·j …` and the scale, and writes back the `1024 × 512` block `(i, j)` of the result. Entry `(p, q)` of that
  block is entry `(1024·i + p, 512·j + q)` of the array, and the body's value there (`KernelPayload.lean`) is the
  layer of `Spec.lean` at that entry: the activation block's row `p` is the array's row `1024·i + p`, the
  weight block's row `q` is the array's row `512·j + q`, and the bias, reshaped to one row before the call,
  is read at column `512·j + q`. The 64 blocks tile the array (the block holding `(r, c)` is
  `(r / 1024, c / 512)`), so the array ends holding the layer everywhere.

  The scale is whatever the host operations in front of the call leave in the 1×1 array; it is named here and
  opened only where it meets the reference's.
-/
import proofs.«167801_j28939489640538_1_alg».proof.Proof.Gen.KernelIdeal.Value
import proofs.«167801_j28939489640538_1_alg».proof.Proof.KernelPayload
import proofs.«167801_j28939489640538_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.TernaryLinear.Kernel

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen Cert.KernelIdeal.Value
open Cert.TernaryLinear

variable (m : (ℓ : Loc nD τ sig) → Buf (Elt Ideal) ℓ) (ρ : Dev nD → PrngReg)

theorem hz : (![0, 0] : Fin 2 → Nat) = fun _ => 0 := funext fun a => by fin_cases a <;> rfl

/-! ## What the host operations in front of the call leave -/

/-- The bias as the call finds it: reshaped to one row. -/
theorem bias_row (c : Dev nD) :
    (V m c main_v0 : S1x2048.Idx → EReal) = shapeCast S1x2048 (m ((c : Thread nD τ).loc main_arg2)) Facts₀.shapeCasts_S2048_S1x2048 := by
  dsimp only [Gen.V, Gen.hostOps0]; after_results; rfl

/-- The scale as the call finds it: the one entry of the 1×1 array. -/
def scale (c : Dev nD) : EReal :=
  (V m c (Pipeline.arrRef spec0 (3 : Fin cfg0.W)) : S1x1.Idx → EReal) (ix2 (0 : Fin 1) (0 : Fin 1))

/-! ## The index maps, decided over the 64 grid points -/

theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = 0
    ∧ win0_4.index t (0 : Fin 2) < 16 ∧ win0_4.index t (1 : Fin 2) < 4 :=
  (by decide +kernel : ∀ t : Fin grid0.N, _)

/-- Every block of the result is some point's. -/
theorem idx_onto : ∀ (q0 : Fin 16) (q1 : Fin 4), ∃ t : Fin cfg0.N, win0_4.index t = ![q0.val, q1.val] :=
  (by decide +kernel : ∀ (q0 : Fin 16) (q1 : Fin 4), ∃ t : Fin grid0.N, win0_4.index t = ![q0.val, q1.val])

/-! ## Each input block as entries of its array -/

/-- Row `p` of the activation block is row `1024·i + p` of the activations. -/
theorem xblk_apply (c : Dev nD) (t : Fin cfg0.N) (p : Fin 1024) (k : Fin 2048) (r : Fin 16384)
    (hr : r.val = win0_4.index t (0 : Fin 2) * 1024 + p.val) :
    (iblk m c 0 t : Vec Ideal S1024x2048 .f32) (ix2 p k)
      = (m ((c : Thread nD τ).loc main_arg0) : S16384x2048.Idx → EReal) (ix2 r k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 1024 + 1 * p.val = r.val; omega
  | ⟨1, _⟩ => show win0_0.index t (1 : Fin 2) * 2048 + 1 * k.val = k.val; omega

/-- Row `q` of the weight block is row `512·j + q` of the weights. -/
theorem wblk_apply (c : Dev nD) (t : Fin cfg0.N) (q : Fin 512) (k : Fin 2048) (r : Fin 2048)
    (hr : r.val = win0_4.index t (1 : Fin 2) * 512 + q.val) :
    (iblk m c 1 t : Vec Ideal S512x2048 .f32) (ix2 q k)
      = (m ((c : Thread nD τ).loc main_arg1) : S2048x2048.Idx → EReal) (ix2 r k) := by
  obtain ⟨-, -, e0, e1, -⟩ := idx_facts t
  unfold iblk
  rw [View.read_apply]
  show V m c main_arg1 _ = _
  rw [V_main_arg1]
  congr 1
  funext a
  apply Fin.ext
  match a with
  | ⟨0, _⟩ => show win0_1.index t (0 : Fin 2) * 512 + 1 * q.val = r.val; omega
  | ⟨1, _⟩ => show win0_1.index t (1 : Fin 2) * 2048 + 1 * k.val = k.val; omega

/-- Entry `q` of the bias block is entry `512·j + q` of the bias. -/
theorem bblk_apply (c : Dev nD) (t : Fin cfg0.N) (q : Fin 512) (r : Fin 2048)
    (hr : r.val = win0_4.index t (1 : Fin 2) * 512 + q.val) :
    (iblk m c 2 t : Vec Ideal S1x512 .f32) (ix2 (0 : Fin 1) q)
      = (m ((c : Thread nD τ).loc main_arg2) : S2048.Idx → EReal) (ix1 r) := by
  obtain ⟨-, -, -, -, e0, e1, -⟩ := idx_facts t
  unfold iblk
  rw [View.read_apply]
  show (V m c main_v0 : S1x2048.Idx → EReal) _ = _
  rw [bias_row]
  refine Eq.trans (congrArg (shapeCast S1x2048 (m ((c : Thread nD τ).loc main_arg2)) Facts₀.shapeCasts_S2048_S1x2048) ?_)
    (shapeCast_a_1a_apply _ _ (0 : Fin 1) r)
  funext a
  apply Fin.ext
  match a with
  | ⟨0, _⟩ => show win0_2.index t (0 : Fin 2) * 1 + 1 * 0 = 0; omega
  | ⟨1, _⟩ => show win0_2.index t (1 : Fin 2) * 512 + 1 * q.val = r.val; omega

/-- Whatever a 1×1 array holds, the scale window's block reads its one entry. -/
theorem read_one (c : Dev nD) (A : Buf (Elt Ideal) ((c : Thread nD τ).loc (Pipeline.arrRef spec0 (3 : Fin cfg0.W)))) (t : Fin cfg0.N) :
    (((cfg0.win 3).blk t).view.read (Elt Ideal) A : Vec Ideal S1x1 .f32) (ix2 (0 : Fin 1) (0 : Fin 1))
      = (A : S1x1.Idx → EReal) (ix2 (0 : Fin 1) (0 : Fin 1)) := by
  obtain ⟨-, -, -, -, -, -, e0, e1, -⟩ := idx_facts t
  rw [View.read_apply]
  refine congrArg A ?_
  funext a
  apply Fin.ext
  match a with
  | ⟨0, _⟩ => show win0_3.index t (0 : Fin 2) * 1 + 1 * 0 = 0; omega
  | ⟨1, _⟩ => show win0_3.index t (1 : Fin 2) * 1 + 1 * 0 = 0; omega

/-- The scale block's one entry is the scale. -/
theorem sblk_apply (c : Dev nD) (t : Fin cfg0.N) :
    (iblk m c 3 t : Vec Ideal S1x1 .f32) (ix2 (0 : Fin 1) (0 : Fin 1)) = scale m c :=
  read_one c (V m c (Pipeline.arrRef spec0 (3 : Fin cfg0.W))) t

/-! ## What a point writes back, and the whole array -/

/-- Any block contents `P` that agree, entry by entry, with an array function `G` at the entries the point's block
    covers — entry `(p, q)` of block `(i, j)` sits at `(1024·i + p, 512·j + q)` — are what reading `G` through the block gives. -/
theorem cut_eq_read (t : Fin cfg0.N) (P : Vec Ideal S1024x512 .f32) (G : S16384x2048.Idx → EReal)
    (h : ∀ (p : Fin 1024) (q : Fin 512) (r : Fin 16384) (cc : Fin 2048),
      r.val = win0_4.index t (0 : Fin 2) * 1024 + p.val → cc.val = win0_4.index t (1 : Fin 2) * 512 + q.val → P (ix2 p q) = G (ix2 r cc)) :
    (cfg0.win 4).cut (grid0.coords t) P = ((cfg0.win 4).blk t).view.read (Elt Ideal) G := by
  obtain ⟨-, -, -, -, -, -, -, -, b0, b1⟩ := idx_facts t
  funext j
  obtain ⟨p, q, rfl⟩ : ∃ (p : Fin 1024) (q : Fin 512), j = ix2 p q := ⟨j 0, j 1, eq_ix2 j⟩
  have hp : p.val < 1024 := p.isLt
  have hq : q.val < 512 := q.isLt
  have he : ((cfg0.win 4).blk t).view.emb (ix2 p q)
      = ix2 (⟨win0_4.index t (0 : Fin 2) * 1024 + p.val, by omega⟩ : Fin 16384) (⟨win0_4.index t (1 : Fin 2) * 512 + q.val, by omega⟩ : Fin 2048) := by
    funext a
    apply Fin.ext
    match a with
    | ⟨0, _⟩ => show win0_4.index t (0 : Fin 2) * 1024 + 1 * p.val = win0_4.index t (0 : Fin 2) * 1024 + p.val; omega
    | ⟨1, _⟩ => show win0_4.index t (1 : Fin 2) * 512 + 1 * q.val = win0_4.index t (1 : Fin 2) * 512 + q.val; omega
  show P (ix2 p q) = G (((cfg0.win 4).blk t).view.emb (ix2 p q))
  rw [he]
  exact h p q _ _ rfl rfl

/-- WHAT POINT `t` WRITES BACK is block `t` of the layer of the argument arrays. -/
theorem flushed_eq (c : Dev nD) (t : Fin cfg0.N) :
    (dats m 0 c).flushed 4 t = ((cfg0.win 4).blk t).view.read (Elt Ideal)
      (layer (scale m c) (m ((c : Thread nD τ).loc main_arg0)) (m ((c : Thread nD τ).loc main_arg1)) (m ((c : Thread nD τ).loc main_arg2))) := by
  rw [flushed4]
  unfold out0_4
  rw [View.canon_unit_zero hz]
  simp only [View.ld_unit_zero (S := S1x1) hz, View.ld_unit_zero (S := S512x2048) hz, View.ld_unit_zero (S := S1024x2048) hz,
    View.ld_unit_zero (S := S1x512) hz]
  exact cut_eq_read t (k0_pay1 (F := Ideal) (iblk m c 3 t) (iblk m c 1 t) (iblk m c 0 t) (iblk m c 2 t))
    (layer (scale m c) (m ((c : Thread nD τ).loc main_arg0)) (m ((c : Thread nD τ).loc main_arg1)) (m ((c : Thread nD τ).loc main_arg2)))
    fun p q r cc hr hc =>
      Body.block_eq (iblk m c 3 t) (iblk m c 1 t) (iblk m c 0 t) (iblk m c 2 t) (scale m c)
        (m ((c : Thread nD τ).loc main_arg0)) (m ((c : Thread nD τ).loc main_arg1)) (m ((c : Thread nD τ).loc main_arg2)) p q r cc
        (sblk_apply m c t) (fun k => xblk_apply m c t p k r hr) (fun k => wblk_apply m c t q k cc hc) (bblk_apply m c t q cc hc)

/-- An entry of the array is in point `t`'s block iff each coordinate is in the block's range on its axis. -/
theorem mem_blk (t : Fin cfg0.N) (i : S16384x2048.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v4).slice (win0_4.rect t)).set ↔ _
  rw [View.set_slice_whole, Rect.mem_set_unit]
  exact Iff.rfl

/-- The 64 blocks tile the array: entry `(r, c)` lies in block `(r / 1024, c / 512)`. -/
theorem cover (i : S16384x2048.Idx) :
    ∃ t : Fin cfg0.N, (cfg0.win 4).flush t = true ∧ i ∈ ((cfg0.win 4).blk t).view.set := by
  have hi0 : (i 0).val < 16384 := (i 0).isLt
  have hi1 : (i 1).val < 2048 := (i 1).isLt
  obtain ⟨t, ht⟩ := idx_onto ⟨(i 0).val / 1024, by omega⟩ ⟨(i 1).val / 512, by omega⟩
  have q0 : win0_4.index t (0 : Fin 2) = (i 0).val / 1024 := congrFun ht 0
  have q1 : win0_4.index t (1 : Fin 2) = (i 1).val / 512 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 512 ≤ (i 1).val ∧ (i 1).val < win0_4.index t (1 : Fin 2) * 512 + 512; omega

/-- THE ARRAY after the run is the layer of the argument arrays, at the scale the call found. -/
theorem final (c : Dev nD) :
    (dats m 0 c).arrAt 4 cfg0.N
      = layer (scale m c) (m ((c : Thread nD τ).loc main_arg0)) (m ((c : Thread nD τ).loc main_arg1)) (m ((c : Thread nD τ).loc main_arg2)) :=
  (dats m 0 c).arrAt_eq_of_cover 4 _ (fun t _ => flushed_eq m c t) cover

/-- The kernel's run, read: the result array at the layer, the arguments unchanged. -/
theorem run : θ_run defs (onTc (τ := τ) (main (F := Ideal))) ⟨m, fun _ => 0, ρ⟩ fun r => ∀ c : Dev nD,
      r.2.mem ((c : Thread nD τ).loc main_v4)
        = layer (scale m c) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

/-! ## The scale, opened: the maximum of the weights' absolute values -/

/-- The 1×1 array the call finds: the host's maximum (from `-∞`) of the weights' absolute values, reshaped. -/
theorem scalar_arr (c : Dev nD) :
    (V m c (Pipeline.arrRef spec0 (3 : Fin cfg0.W)) : S1x1.Idx → EReal)
      = shapeCast S1x1 (Host.reduce FloatOps.maximumf (Host.absf (F := Ideal) (m ((c : Thread nD τ).loc main_arg1)))
          (constant (F := Ideal) S_ .f32 0xFF800000#32) Facts₀.reducesTo_S2048x2048_S_d0_1 Facts₀.h_S_) Facts₀.shapeCasts_S_S1x1 := by
  show (V m c main_v3 : S1x1.Idx → EReal) = _
  dsimp only [Gen.V, Gen.hostOps0]; after_results; rfl

/-- So the scale is that maximum, read at its one index. -/
theorem scale_eq (c : Dev nD) :
    scale m c = Host.reduce FloatOps.maximumf (Host.absf (F := Ideal) (m ((c : Thread nD τ).loc main_arg1)))
      (constant (F := Ideal) S_ .f32 0xFF800000#32) Facts₀.reducesTo_S2048x2048_S_d0_1 Facts₀.h_S_ ix0 := by
  unfold scale
  rw [scalar_arr]
  exact shapeCast_apply _ _ _ _ rfl

end Cert.TernaryLinear.Kernel

end
-- ==== Proof.RefValue.lean ====
/-
  The reference program's result, read at an index, is the layer of `Spec.lean` at the scale the reference
  itself computes (the maximum of `|W|`, a fold this file never opens).

  The reference snaps every weight (divide by `s + ε`, round to even, clip to `[-1, 1]`, multiply by `s`),
  transposes the snapped weights, contracts the activations' columns with the transposed matrix's rows, and
  adds the bias broadcast along the rows. Read at `(r, c)`: the transposed matrix at `(k, c)` is the snapped
  weight `(c, k)`, so the contraction is `∑ k, X[r, k] · snap(W[c, k])`, and the broadcast bias is `b[c]`.
-/
import proofs.«167801_j28939489640538_1_alg».proof.Proof.Gen.ReferenceIdeal.Read
import proofs.«167801_j28939489640538_1_alg».proof.Proof.Spec

noncomputable section

open scoped BigOperators

namespace Cert.TernaryLinear.Ref

open Idealize.ShloMosaic Idealize.ShloMosaic.ValueIdx
open Cert.ReferenceIdeal Cert.ReferenceIdeal.Gen Cert.ReferenceIdeal.Read
open Cert.TernaryLinear

/-- The scale the reference computes: the maximum of the weights' absolute values (from `-∞`). -/
def scale (W : (⟨S2048x2048, .f32⟩ : BufTy).Contents (Elt Ideal)) : EReal :=
  val_main_v1 (F := Ideal) W ix0

/-- One snapped weight: the reference's elementwise chain at an index. -/
theorem snapped_apply (W : (⟨S2048x2048, .f32⟩ : BufTy).Contents (Elt Ideal)) (j : S2048x2048.Idx) :
    val_main_v8 (F := Ideal) W j = snap (scale W) (W j) := by
  rw [val_main_v8_apply, val_main_v6_apply, val_main_call1_v4_apply, val_main_call1_v3_apply, val_main_cst_2_apply,
    val_main_call1_v2_apply, val_main_call1_v1_apply, val_main_call1_v0_apply, val_main_cst_1_apply,
    val_main_v5_apply, val_main_v4_apply, val_main_v3_apply, val_main_v2_apply, val_main_cst_0_apply,
    val_main_v7_apply]
  unfold snap scale
  simp only [Ideal.mulf_def, Ideal.minimumf_def, Ideal.maximumf_def, Ideal.hostUnary_roundeven_def, Ideal.hostDivf_def,
    Ideal.addf_def, Ideal.ofBits_def]

/-- The reference's result is the layer at its own scale. -/
theorem result_eq (X : (⟨S16384x2048, .f32⟩ : BufTy).Contents (Elt Ideal)) (W : (⟨S2048x2048, .f32⟩ : BufTy).Contents (Elt Ideal))
    (b : (⟨S2048, .f32⟩ : BufTy).Contents (Elt Ideal)) :
    val_main_v13 (F := Ideal) X W b = layer (scale W) X W b := by
  funext i
  obtain ⟨r, c, rfl⟩ : ∃ (r : Fin 16384) (c : Fin 2048), i = ix2 r c := ⟨i 0, i 1, eq_ix2 i⟩
  rw [val_main_v13_apply, val_main_v10_apply, val_main_v12_apply, val_main_v11_apply, layer_apply]
  show (∑ k : Fin 2048, _) + _ = _
  congr 1
  · refine Finset.sum_congr rfl fun k _ => ?_
    rw [val_main_v9_apply, snapped_apply]
    have e1 : lidx_main_v10 (ix2 r c) k = ix2 r k := funext fun a => Fin.ext (by
      match a with
      | ⟨0, _⟩ => rfl
      | ⟨1, _⟩ => rfl)
    have e2 : idx_main_v9 (ridx_main_v10 (ix2 r c) k) = ix2 c k := funext fun a => Fin.ext (by
      match a with
      | ⟨0, _⟩ => rfl
      | ⟨1, _⟩ => rfl)
    rw [e1, e2]
  · exact congrArg b (funext fun a => Fin.ext (by
      match a with
      | ⟨0, _⟩ => rfl))

end Cert.TernaryLinear.Ref

end
-- ==== Proof.lean ====
/-
  A ternary-weight linear layer: the Pallas kernel against its jnp reference, over the extended reals.

  Both programs take the scale `s = max |W|`, snap every weight to `{-s, 0, s}` by
  `clip(roundHalfEven(w / (s + ε)), -1, 1) · s`, and return `X · snap(W)ᵀ + b`. The kernel computes `s` on the host,
  then runs a 16 × 4 grid whose point `(i, j)` snaps 512 weight rows, multiplies 1024 activation rows by them (both
  operands narrowed to bf16 first: the identity on extended reals) and adds the matching bias entries; the reference
  snaps the whole matrix, transposes it, and does one matrix product. Read at an entry `(r, c)` both are

    (∑ k, X[r, k] · snap_s(W[c, k])) + b[c]

  with the very same operations in the same order inside `snap`, so no algebraic law is needed and the finiteness of
  the inputs is never used: the two results agree for all extended-real inputs. The scale is the same host fold on
  both sides and is never opened.

  `Spec.lean` states that function; `KernelPayload.lean` reads the kernel body's stored value at an entry;
  `KernelValue.lean` goes from the 64 blocks to the whole array; `RefValue.lean` reads the reference's run at an entry.
  The idealization rewrote nothing, so the `preserves` claim is `True`.
-/
import proofs.«167801_j28939489640538_1_alg».proof.Defs
import proofs.«167801_j28939489640538_1_alg».proof.Proof.Gen.Kernel
import proofs.«167801_j28939489640538_1_alg».proof.Proof.Gen.Kernel.Skeleton
import proofs.«167801_j28939489640538_1_alg».proof.Proof.Gen.Kernel.Launch
import proofs.«167801_j28939489640538_1_alg».proof.Proof.Gen.Kernel.Points
import proofs.«167801_j28939489640538_1_alg».proof.Proof.Gen.Kernel.Frame
import proofs.«167801_j28939489640538_1_alg».proof.Proof.Gen.KernelIdeal
import proofs.«167801_j28939489640538_1_alg».proof.Proof.Gen.KernelIdeal.Skeleton
import proofs.«167801_j28939489640538_1_alg».proof.Proof.Gen.KernelIdeal.Launch
import proofs.«167801_j28939489640538_1_alg».proof.Proof.Gen.KernelIdeal.Points
import proofs.«167801_j28939489640538_1_alg».proof.Proof.Gen.KernelIdeal.Frame
import proofs.«167801_j28939489640538_1_alg».proof.Proof.Gen.ReferenceIdeal
import proofs.«167801_j28939489640538_1_alg».proof.Proof.Gen.Pre_finite_inputs
import proofs.«167801_j28939489640538_1_alg».proof.Proof.Gen.KernelIdeal.Value
import proofs.«167801_j28939489640538_1_alg».proof.Proof.Gen.ReferenceIdeal.Run
import proofs.«167801_j28939489640538_1_alg».proof.Proof.Gen.ReferenceIdeal.Read
import proofs.«167801_j28939489640538_1_alg».proof.Proof.Spec
import proofs.«167801_j28939489640538_1_alg».proof.Proof.KernelValue
import proofs.«167801_j28939489640538_1_alg».proof.Proof.RefValue
import Idealize.ShloMosaic.Adequacy
import Idealize.ShloMosaic.Init

noncomputable section

namespace Cert.Proof

open Idealize.ShloMosaic Idealize.ShloMosaic.TcCoe Idealize.SL.Sem
open Cert.TernaryLinear

/-- The three programs run, fault-free, and leave their arguments unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The scale the reference computes from the same weights is the scale the kernel's call finds: one host fold,
    the maximum of the absolute values from `-∞`, stated twice. -/
theorem scale_agree (m : (ℓ : Loc Cert.KernelIdeal.nD Cert.KernelIdeal.τ Cert.KernelIdeal.sig) → Buf (Elt Ideal) ℓ)
    (c : Dev Cert.KernelIdeal.nD) :
    Ref.scale (m ((c : Thread Cert.KernelIdeal.nD Cert.KernelIdeal.τ).loc Cert.KernelIdeal.main_arg1)) = Kernel.scale m c := by
  rw [Kernel.scale_eq]
  unfold Ref.scale Cert.ReferenceIdeal.Read.val_main_v1 Cert.ReferenceIdeal.Read.val_main_v0 Cert.ReferenceIdeal.Read.val_main_cst
  rfl

/-- From memories that agree on the arguments both idealized programs end with the layer of those arguments. -/
theorem algebraic : Cert.algebraic_KernelIdeal_ReferenceIdeal := by
  intro m ρ m' ρ' _ hagree
  refine ⟨fun c => layer (Kernel.scale m c)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)), Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v13_eq, Ref.result_eq, scale_agree]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
